-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S1024x512 : Shape := ⟨2, ![1024, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S512x512 .f32) (main_arg1 : FVec F S1024x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S512x512 : Shape := ⟨2, ![512, 512]⟩
abbrev S1024x512 : Shape := ⟨2, ![1024, 512]⟩
abbrev S128x128 : Shape := ⟨2, ![128, 128]⟩
abbrev S1x128x128 : Shape := ⟨3, ![1, 128, 128]⟩
abbrev S128x1x128 : Shape := ⟨3, ![128, 1, 128]⟩
abbrev S128x128x128 : Shape := ⟨3, ![128, 128, 128]⟩

abbrev nBuf : Space → Nat
  | .hbm => 3
  | .vmem => 7
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S1024x512, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S1x128x128 : S128x128.ShapeCasts S1x128x128
  shapeCasts_S128x128_S128x1x128 : S128x128.ShapeCasts S128x1x128
  broadcasts_S1x128x128_S128x128x128 : S1x128x128.Broadcasts S128x128x128
  broadcasts_S128x1x128_S128x128x128 : S128x1x128.Broadcasts S128x128x128
  reduces_S128x128x128_S128x128 : S128x128x128.Reduces [2] S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x512.size a
  hwx0_0 : ∀ i : grid0.Coords, EltTy.bits .f32 = 32 ∨ (Rect.block (s := S1024x512) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x512.size a
  hwx0_1 : ∀ i : grid0.Coords, EltTy.bits .f32 = 32 ∨ (Rect.block (s := S512x512) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x512.size a
  hwx0_2 : ∀ i : grid0.Coords, EltTy.bits .f32 = 32 ∨ (Rect.block (s := S1024x512) S128x128.size (cc0_transform_2 i) (hinb0_2 i)).WholeWords (EltTy.packing .f32)

variable [Facts₀]

abbrev win0_0 : Pipeline.Window sig grid0 :=
  Pipeline.Window.ofSpec (Memref.whole main_arg1) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x512 : Shape := ⟨2, ![512, 512]⟩
abbrev S1024x512 : Shape := ⟨2, ![1024, 512]⟩
abbrev S1x512x512 : Shape := ⟨3, ![1, 512, 512]⟩
abbrev S1024x1x512 : Shape := ⟨3, ![1024, 1, 512]⟩
abbrev S1024x512x512 : Shape := ⟨3, ![1024, 512, 512]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .hbm, ⟨2, _⟩ => ⟨S1x512x512, .f32⟩
  | .hbm, ⟨3, _⟩ => ⟨S1024x1x512, .f32⟩
  | .hbm, ⟨4, _⟩ => ⟨S1024x512x512, .f32⟩
  | .hbm, ⟨5, _⟩ => ⟨S1024x512x512, .f32⟩
  | .hbm, ⟨6, _⟩ => ⟨S1024x512x512, .f32⟩
  | .hbm, ⟨7, _⟩ => ⟨S_, .f32⟩
  | .hbm, ⟨8, _⟩ => ⟨S1024x512x512, .f32⟩
  | .hbm, ⟨9, _⟩ => ⟨S1024x512x512, .f32⟩
  | .hbm, ⟨10, _⟩ => ⟨S1024x512x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S512x512_S1x512x512_1_2 : S512x512.BroadcastsInDim S1x512x512 (![1, 2] : Fin 2 → Fin S1x512x512.rank)
  bcast_S1024x512_S1024x1x512_0_2 : S1024x512.BroadcastsInDim S1024x1x512 (![0, 2] : Fin 2 → Fin S1024x1x512.rank)
  bcast_S1x512x512_S1024x512x512_0_1_2 : S1x512x512.BroadcastsInDim S1024x512x512 (![0, 1, 2] : Fin 3 → Fin S1024x512x512.rank)
  bcast_S1024x1x512_S1024x512x512_0_1_2 : S1024x1x512.BroadcastsInDim S1024x512x512 (![0, 1, 2] : Fin 3 → Fin S1024x512x512.rank)
  bcast_S_S1024x512x512 : S_.BroadcastsInDim S1024x512x512 (![] : Fin 0 → Fin S1024x512x512.rank)
  reducesTo_S1024x512x512_S1024x512_d2 : S1024x512x512.ReducesTo [2] S1024x512
  h_S_ : 0 < S_.numel

variable [Facts₀]

class Facts : Prop extends Facts₀ where

variable [Facts]
-- ==== Proof.OrderScore.lean ====
/-
  The order-violation score as ONE function of the two embedding tables, and the law that lets a sum over the
  512 features be taken in four runs of 128.

  For a label table `lab : [512, 512]` and a visual table `vis : [1024, 512]` the score of visual row `n` against
  label row `r` is `-√(∑ d, (max (lab r d - vis n d) 0)²)`: minus the Euclidean norm of the positive part of
  `lab r - vis n`. Everything is read on the extended reals, where `+` is commutative and associative with unit `0`;
  nothing below needs an entry to be finite.
-/
import Idealize.ShloMosaic.PureOps.Ideal.Laws
import Idealize.ShloMosaic.Lib.ValueIdx

noncomputable section

namespace OrderScore

open Idealize.ShloMosaic Idealize.ShloMosaic.ValueIdx

/-- The squared positive part of `a - b`. -/
def hingeSq (a b : EReal) : EReal := max (a - b) 0 * max (a - b) 0

/-- The summand of the score of (visual row `n`, label row `r`) at feature `d`. -/
def term (lab : (⟨2, ![512, 512]⟩ : Shape).Idx → EReal) (vis : (⟨2, ![1024, 512]⟩ : Shape).Idx → EReal)
    (n : Fin 1024) (r : Fin 512) (d : Fin 512) : EReal :=
  hingeSq (lab (ix2 r d)) (vis (ix2 n d))

/-- The score array: entry `(n, r)` is minus the root of the summed squared positive parts. -/
def score (lab : (⟨2, ![512, 512]⟩ : Shape).Idx → EReal) (vis : (⟨2, ![1024, 512]⟩ : Shape).Idx → EReal) :
    (⟨2, ![1024, 512]⟩ : Shape).Idx → EReal :=
  fun i => -(Ideal.sqrt (∑ d : Fin 512, term lab vis (i 0) (i 1) d))

/-! ## A sum over 512 indices, taken 128 at a time -/

/-- The part of a sum over `Fin 512` carried by the `k`-th run of 128 consecutive indices. -/
def chunk (f : Fin 512 → EReal) (k : ℕ) (hk : k < 4) : EReal :=
  ∑ e : Fin 128, f ⟨128 * k + e.val, by omega⟩

/-- The first `k + 1` runs together. -/
def upTo (f : Fin 512 → EReal) (k : ℕ) (hk : k < 4) : EReal :=
  ∑ j : Fin (k + 1), chunk f j.val (by omega)

theorem upTo_zero (f : Fin 512 → EReal) : upTo f 0 (by norm_num) = chunk f 0 (by norm_num) := by
  unfold upTo
  rw [Fin.sum_univ_one]
  rfl

theorem upTo_succ (f : Fin 512 → EReal) (k : ℕ) (hk : k + 1 < 4) :
    upTo f (k + 1) hk = upTo f k (by omega) + chunk f (k + 1) hk := by
  unfold upTo
  rw [Fin.sum_univ_castSucc]
  rfl

/-- All four runs together are the whole sum: `(k, e) ↦ 128 k + e` is a bijection of `Fin 4 × Fin 128` with `Fin 512`. -/
theorem upTo_three (f : Fin 512 → EReal) : upTo f 3 (by norm_num) = ∑ d : Fin 512, f d := by
  have h : ∑ d : Fin 512, f d = ∑ p : Fin 4 × Fin 128, f (finProdFinEquiv p) :=
    (Equiv.sum_comp (finProdFinEquiv (m := 4) (n := 128)) f).symm
  rw [h, Fintype.sum_prod_type]
  unfold upTo chunk
  refine Finset.sum_congr rfl fun k _ => Finset.sum_congr rfl fun e _ => congrArg f (Fin.ext ?_)
  show 128 * k.val + e.val = e.val + 128 * k.val
  omega

end OrderScore

end
-- ==== Proof.RefScore.lean ====
/-
  The reference's result is the order-violation score.

  Read one operation at a time, the reference broadcasts both tables to `[1024, 512, 512]`, subtracts, takes the positive
  part against a zero, squares, sums over the last axis from a zero, takes the root and negates. At entry `(n, r)` that
  is `-√(0 + ∑ d, (max (lab r d - vis n d) 0)²)`; the leading zero is the unit of `+`.
-/
import proofs.«139450_j15899968930480_1_alg».proof.Proof.Gen.ReferenceIdeal.Read
import proofs.«139450_j15899968930480_1_alg».proof.Proof.OrderScore

noncomputable section

namespace Cert.ReferenceIdeal.RefScore

open Cert.ReferenceIdeal Cert.ReferenceIdeal.Gen Cert.ReferenceIdeal.Read
open Idealize.ShloMosaic Idealize.ShloMosaic.ValueIdx OrderScore

/-- The reference's last stage, at the ideal values, is the score of its two arguments. -/
theorem result_is_score (x0 : (⟨S512x512, .f32⟩ : BufTy).Contents (Elt Ideal))
    (x1 : (⟨S1024x512, .f32⟩ : BufTy).Contents (Elt Ideal)) :
    val_main_v9 (F := Ideal) x0 x1 = score x0 x1 := by
  funext i
  have e0 : ∀ k : Fin 512, idx_main_v0 (idx_main_v2 (idx_main_v7 i k)) = ix2 (i 1) k := fun k =>
    funext fun a => by match a with | ⟨0, _⟩ => rfl | ⟨1, _⟩ => rfl
  have e1 : ∀ k : Fin 512, idx_main_v1 (idx_main_v3 (idx_main_v7 i k)) = ix2 (i 0) k := fun k =>
    funext fun a => by match a with | ⟨0, _⟩ => rfl | ⟨1, _⟩ => rfl
  rw [val_main_v9_apply, val_main_v8_apply, val_main_v7_apply]
  simp only [val_main_v6_apply, val_main_v5_apply, val_main_v4_apply, val_main_v2_apply, val_main_v0_apply,
    val_main_v3_apply, val_main_v1_apply, val_main_call0_v0_apply, val_main_call0_cst_apply, val_main_cst_apply,
    e0, e1, Ideal.hostNegf_def, Ideal.negf_def, Ideal.hostUnary_sqrt_def, Ideal.mulf_def, Ideal.maximumf_def,
    Ideal.subf_def, Ideal.ofBits_def, Ideal.ofBits_zero_f32, zero_add]
  rfl

end Cert.ReferenceIdeal.RefScore

end
-- ==== Proof.StepValue.lean ====
/-
  What one grid step leaves behind, as a function of what it read.

  The body has one accumulator block. A step that opens a run of the feature axis first stores the zero block into it;
  every step then stores `acc + ∑ₑ (max (lab − vis) 0)²` over the accumulator it reads back; the step that closes a run
  also stores `0 − √acc` of the accumulator it has just written into the output block. Each stored value below is the
  last store covering its block, with every read of a block resolved to the value last stored there.
-/
import proofs.«139450_j15899968930480_1_alg».proof.Proof.Gen.KernelIdeal.Frame
import Idealize.ShloMosaic.Lib.Pipeline.Value
import Idealize.ShloMosaic.Lib.Tactic

set_option maxRecDepth 16384

noncomputable section

namespace Cert.KernelIdeal.StepValue

open Cert.KernelIdeal Cert.KernelIdeal.Gen Idealize.ShloMosaic Idealize.ShloMosaic.TcCoe Idealize.SL.Sem
open Idealize.ShloMosaic.Tactic

variable {F : FTy → Type} [FloatOps F]

theorem origin : (![0, 0] : Fin 2 → Nat) = fun _ => 0 := funext fun a => by fin_cases a <;> rfl

/-- A step that opens a run leaves the accumulator at the partial sum taken over the zero block. -/
theorem acc_open (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (hc0 : cond0_0 i) (hc1 : ¬cond0_1 i)
    (x0 : Vec F S128x128 .f32) (x1 : Vec F S128x128 .f32) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S128x128) origin, View.readCov_unit_zero (S := S128x128) _ origin]
  simp only [View.readAt_eq_ld, harg3.read_unread, harg4.read_unread, View.ld_unit_zero (S := S128x128) origin]

/-- A step inside a run leaves the accumulator at the partial sum taken over what the step before left. -/
theorem acc_inner (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : ¬cond0_1 i)
    (x0 : Vec F S128x128 .f32) (x1 : Vec F S128x128 .f32) (xs0 : Vec F S128x128 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero origin]
  simp only [View.readAt_eq_ld, harg3.read_unread, harg4.read_unread, harg6.read_unread,
    View.ld_unit_zero (S := S128x128) origin]

/-- The step that closes a run leaves the accumulator likewise, -/
theorem acc_close (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S128x128 .f32) (x1 : Vec F S128x128 .f32) (xs0 : Vec F S128x128 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero origin]
  simp only [View.readAt_eq_ld, harg3.read_unread, harg4.read_unread, harg6.read_unread,
    View.ld_unit_zero (S := S128x128) origin]

/-- and the output block at `0 − √` of that accumulator. -/
theorem out_close (c : Dev nD) (i : grid0.Coords) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (hc0 : ¬cond0_0 i) (hc1 : cond0_1 i)
    (x0 : Vec F S128x128 .f32) (x1 : Vec F S128x128 .f32) (xs0 : Vec F S128x128 .f32) :
    out0_C_2 c i arg3 harg3 arg4 harg4 arg5 harg5 arg6 harg6 hc0 hc1 x0 x1 xs0 = k0_pay3 (k0_pay2 x0 x1 xs0) := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero origin]
  simp only [View.readCov_unit_zero (S := S128x128) _ origin, View.readAt_eq_ld, harg3.read_unread,
    harg4.read_unread, harg6.read_unread, View.ld_unit_zero (S := S128x128) origin]

end Cert.KernelIdeal.StepValue

end
-- ==== Proof.StepAt.lean ====
/-
  The three stored values of a grid step, read at one entry on the extended reals.

  With `vis` the step's block of visual rows (rows `p`, features `e`) and `lab` its block of label rows (rows `q`,
  features `e`): the body lays `lab` out as `(·, q, e)` and `vis` as `(p, ·, e)`, so entry `(p, q, e)` of their difference
  is `lab q e − vis p e`; its positive part is squared and summed over `e`. Hence entry `(p, q)` of the accumulator store is
  `acc p q + ∑ₑ (max (lab q e − vis p e) 0)²`, of the reset store `0`, and of the output store `0 − √(acc p q) = −√(acc p q)`.
-/
import proofs.«139450_j15899968930480_1_alg».proof.Proof.Gen.KernelIdeal.Skeleton
import proofs.«139450_j15899968930480_1_alg».proof.Proof.OrderScore
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.StepAt

open Cert.KernelIdeal Cert.KernelIdeal.Gen
open Idealize.ShloMosaic Idealize.ShloMosaic.ValueIdx OrderScore

/-- The label block laid out along a new leading axis reads `(p, q, e)` at `(q, e)`. -/
theorem labLanes_apply (x1 : Vec Ideal S128x128 .f32) (p q e : Fin 128) :
    broadcastTo S128x128x128 (shapeCast S1x128x128 x1 shapeCasts_S128x128_S1x128x128)
      broadcasts_S1x128x128_S128x128x128 (ix3 p q e) = x1 (ix2 q e) :=
  (broadcastTo_apply _ broadcasts_S1x128x128_S128x128x128 (ix3 p q e) (ix3 (0 : Fin 1) q e) (fun a => by
    match a with
    | ⟨0, _⟩ => show (0 : ℕ) = if (1 : ℕ) = 1 then 0 else p.val; rw [if_pos rfl]
    | ⟨1, _⟩ => show q.val = if (128 : ℕ) = 1 then 0 else q.val; rw [if_neg (by decide)]
    | ⟨2, _⟩ => show e.val = if (128 : ℕ) = 1 then 0 else e.val; rw [if_neg (by decide)])).trans
    (shapeCast_ab_1ab_apply x1 shapeCasts_S128x128_S1x128x128 0 q e)

/-- The visual block laid out along a new middle axis reads `(p, q, e)` at `(p, e)`. -/
theorem visLanes_apply (x0 : Vec Ideal S128x128 .f32) (p q e : Fin 128) :
    broadcastTo S128x128x128 (shapeCast S128x1x128 x0 shapeCasts_S128x128_S128x1x128)
      broadcasts_S128x1x128_S128x128x128 (ix3 p q e) = x0 (ix2 p e) :=
  (broadcastTo_apply _ broadcasts_S128x1x128_S128x128x128 (ix3 p q e) (ix3 p (0 : Fin 1) e) (fun a => by
    match a with
    | ⟨0, _⟩ => show p.val = if (128 : ℕ) = 1 then 0 else p.val; rw [if_neg (by decide)]
    | ⟨1, _⟩ => show (0 : ℕ) = if (1 : ℕ) = 1 then 0 else q.val; rw [if_pos rfl]
    | ⟨2, _⟩ => show e.val = if (128 : ℕ) = 1 then 0 else e.val; rw [if_neg (by decide)])).trans
    (shapeCast_apply x0 shapeCasts_S128x128_S128x1x128 (ix3 p (0 : Fin 1) e) (ix2 p e) (by
      rw [Shape.rowMajor_val_two, Shape.rowMajor_val_three]
      show p.val * 128 + e.val = (p.val * 1 + 0) * 128 + e.val
      omega))

/-- The reset store is the zero block. -/
theorem reset_apply (p q : Fin 128) : k0_pay1 (F := Ideal) (ix2 p q) = 0 := by
  unfold k0_pay1
  rw [shapeCast_self]
  exact Ideal.ofBits_zero_f32

/-- The accumulator store at `(p, q)`: what it read there plus the block's summed squared positive parts. -/
theorem accum_apply (x0 x1 acc : Vec Ideal S128x128 .f32) (p q : Fin 128) :
    k0_pay2 (F := Ideal) x0 x1 acc (ix2 p q)
      = acc (ix2 p q) + ∑ e : Fin 128, hingeSq (x1 (ix2 q e)) (x0 (ix2 p e)) := by
  unfold k0_pay2
  rw [shapeCast_self]
  refine congrArg (acc (ix2 p q) + ·) ?_
  refine (Ideal.multiReduction_add_single _ 0x00000000#32 reduces_S128x128x128_S128x128 (.inl rfl) rfl (ix2 p q)).trans ?_
  refine Finset.sum_congr rfl fun (e : Fin 128) _ => ?_
  have hl : reduces_S128x128x128_S128x128.lift (ix2 p q) e = ix3 p q e := funext fun a => by
    match a with
    | ⟨0, _⟩ => rfl
    | ⟨1, _⟩ => rfl
    | ⟨2, _⟩ => rfl
  rw [hl]
  show max (_ - _) _ * max (_ - _) _ = _
  rw [labLanes_apply, visLanes_apply]
  show max (x1 (ix2 q e) - x0 (ix2 p e)) (Ideal.ofBits .f32 0x00000000#32)
      * max (x1 (ix2 q e) - x0 (ix2 p e)) (Ideal.ofBits .f32 0x00000000#32) = _
  rw [Ideal.ofBits_zero_f32]
  rfl

/-- The output store at `(p, q)`: minus the root of the accumulator there. -/
theorem negRoot_apply (a : Vec Ideal S128x128 .f32) (p q : Fin 128) :
    k0_pay3 (F := Ideal) a (ix2 p q) = -(Ideal.sqrt (a (ix2 p q))) := by
  unfold k0_pay3
  show Ideal.ofBits .f32 0x00000000#32 - Ideal.sqrt (a (ix2 p q)) = _
  rw [Ideal.ofBits_zero_f32, zero_sub]

end Cert.KernelIdeal.StepAt

end
-- ==== Proof.PointSum.lean ====
/-
  What the accumulator and the output block hold after each grid step.

  The grid is `8 × 4 × 4`, walked with the feature chunk `k` fastest: step `n` is (visual block `n / 16`, label block
  `n / 4 % 4`, chunk `n % 4`). A step reads rows `128·(n / 16) + p` of the visual table and rows `128·(n / 4 % 4) + q` of the
  label table, features `128·(n % 4) + e`. The accumulator is reset when `k = 0` and read back otherwise, so after step `n`
  its entry `(p, q)` is the sum of the squared positive parts over chunks `0 … n % 4` — by induction on `n`, the step case
  adding one chunk to what the step before left. When `k = 3` that is the whole sum over the 512 features, and the output
  block's entry is minus its root: the score of that pair of rows.
-/
import proofs.«139450_j15899968930480_1_alg».proof.Proof.Gen.KernelIdeal.Value
import proofs.«139450_j15899968930480_1_alg».proof.Proof.StepValue
import proofs.«139450_j15899968930480_1_alg».proof.Proof.StepAt
import proofs.«139450_j15899968930480_1_alg».proof.Proof.OrderScore

set_option maxRecDepth 16384

noncomputable section

namespace Cert.KernelIdeal.PointSum

open Cert.KernelIdeal Cert.KernelIdeal.Gen Idealize.ShloMosaic Idealize.ShloMosaic.TcCoe Idealize.SL.Sem
open Idealize.ShloMosaic.ValueIdx OrderScore
open Cert.KernelIdeal.StepValue Cert.KernelIdeal.StepAt

variable (m : (ℓ : Loc nD τ sig) → Buf (Elt Ideal) ℓ)

/-- The step's block of visual rows, its block of label rows, and the two tables as the kernel finds them. -/
abbrev visBlk (c : Dev nD) (t : Fin cfg0.N) : Vec Ideal S128x128 .f32 := iblk m c 0 t
abbrev labBlk (c : Dev nD) (t : Fin cfg0.N) : Vec Ideal S128x128 .f32 := iblk m c 1 t
abbrev visArr (c : Dev nD) : Vec Ideal S1024x512 .f32 := V m c main_arg1
abbrev labArr (c : Dev nD) : Vec Ideal S512x512 .f32 := V m c main_arg0

/-- Which block of each table a step reads and which block of the result it writes, in closed form. -/
theorem blockIdx : ∀ t : Fin cfg0.N, win0_0.index t (0 : Fin 2) = t.val / 16
    ∧ win0_0.index t (1 : Fin 2) = t.val % 4
    ∧ win0_1.index t (0 : Fin 2) = t.val / 4 % 4
    ∧ win0_1.index t (1 : Fin 2) = t.val % 4
    ∧ win0_2.index t (0 : Fin 2) = t.val / 16
    ∧ win0_2.index t (1 : Fin 2) = t.val / 4 % 4 :=
  (by decide +kernel : ∀ t : Fin grid0.N, _)

/-- Entry `(p, e)` of the visual block is entry `(128·(t / 16) + p, 128·(t % 4) + e)` of the visual table. -/
theorem visBlk_apply (c : Dev nD) (t : Fin cfg0.N) (p e : Fin 128) (r : Fin 1024) (d : Fin 512)
    (hr : r.val = 128 * (t.val / 16) + p.val) (hd : d.val = 128 * (t.val % 4) + e.val) :
    visBlk m c t (ix2 p e) = visArr m c (ix2 r d) := by
  obtain ⟨e0, e1, -, -, -, -⟩ := blockIdx t
  show visArr m c (((cfg0.win 0).blk t).view.emb (ix2 p e)) = visArr m c (ix2 r d)
  refine congrArg (visArr m c) (funext fun a => Fin.ext ?_)
  match a with
  | ⟨0, _⟩ => show win0_0.index t (0 : Fin 2) * 128 + 1 * p.val = r.val; omega
  | ⟨1, _⟩ => show win0_0.index t (1 : Fin 2) * 128 + 1 * e.val = d.val; omega

/-- Entry `(q, e)` of the label block is entry `(128·(t / 4 % 4) + q, 128·(t % 4) + e)` of the label table. -/
theorem labBlk_apply (c : Dev nD) (t : Fin cfg0.N) (q e : Fin 128) (s : Fin 512) (d : Fin 512)
    (hs : s.val = 128 * (t.val / 4 % 4) + q.val) (hd : d.val = 128 * (t.val % 4) + e.val) :
    labBlk m c t (ix2 q e) = labArr m c (ix2 s d) := by
  obtain ⟨-, -, e2, e3, -, -⟩ := blockIdx t
  show labArr m c (((cfg0.win 1).blk t).view.emb (ix2 q e)) = labArr m c (ix2 s d)
  refine congrArg (labArr m c) (funext fun a => Fin.ext ?_)
  match a with
  | ⟨0, _⟩ => show win0_1.index t (0 : Fin 2) * 128 + 1 * q.val = s.val; omega
  | ⟨1, _⟩ => show win0_1.index t (1 : Fin 2) * 128 + 1 * e.val = d.val; omega

/-- A step's summed squared positive parts at `(p, q)` are chunk `t % 4` of the score's sum for its pair of rows. -/
theorem blockSum (c : Dev nD) (t : Fin cfg0.N) (k : ℕ) (hk : k < 4) (hkt : t.val % 4 = k) (p q : Fin 128)
    (r : Fin 1024) (s : Fin 512) (hr : r.val = 128 * (t.val / 16) + p.val) (hs : s.val = 128 * (t.val / 4 % 4) + q.val) :
    ∑ e : Fin 128, hingeSq (labBlk m c t (ix2 q e)) (visBlk m c t (ix2 p e))
      = chunk (term (labArr m c) (visArr m c) r s) k hk := by
  unfold chunk term
  refine Finset.sum_congr rfl fun (e : Fin 128) _ => ?_
  rw [labBlk_apply m c t q e s ⟨128 * k + e.val, by omega⟩ hs (by show 128 * k + e.val = 128 * (t.val % 4) + e.val; rw [hkt]),
    visBlk_apply m c t p e r ⟨128 * k + e.val, by omega⟩ hr (by show 128 * k + e.val = 128 * (t.val % 4) + e.val; rw [hkt])]

/-! ## One step of the accumulator -/

/-- A step with `k = 0`: the block's partial sum over the zero block. -/
theorem step_open (c : Dev nD) (t : Fin cfg0.N) (h0 : t.val % 4 = 0) (h1 : ¬t.val % 4 = 3) :
    (outsAt0 m c t.val t.isLt).2 = k0_pay2 (visBlk m c t) (labBlk m c t) (k0_pay1 (F := Ideal)) := by
  rw [outsAt0_A m c t h0 h1]
  dsimp only
  exact acc_open (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)

/-- A step with `k = 1, 2`: the block's partial sum over what the step before left. -/
theorem step_inner (c : Dev nD) (n : ℕ) (h : n + 1 < cfg0.N) (h0 : ¬(n + 1) % 4 = 0) (h1 : ¬(n + 1) % 4 = 3) :
    (outsAt0 m c (n + 1) h).2
      = k0_pay2 (visBlk m c (⟨n + 1, h⟩ : Fin cfg0.N)) (labBlk m c (⟨n + 1, h⟩ : Fin cfg0.N)) (outsAt0 m c n (Nat.lt_of_succ_lt h)).2 := by
  rw [outsAt0_B m c (⟨n + 1, h⟩ : Fin cfg0.N) h0 h1]
  dsimp only
  exact acc_inner (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (outsAt0 m c n (Nat.lt_of_succ_lt h)).2

/-- A step with `k = 3`: the same for the accumulator, -/
theorem step_close (c : Dev nD) (n : ℕ) (h : n + 1 < cfg0.N) (h0 : ¬(n + 1) % 4 = 0) (h1 : (n + 1) % 4 = 3) :
    (outsAt0 m c (n + 1) h).2
      = k0_pay2 (visBlk m c (⟨n + 1, h⟩ : Fin cfg0.N)) (labBlk m c (⟨n + 1, h⟩ : Fin cfg0.N)) (outsAt0 m c n (Nat.lt_of_succ_lt h)).2 := by
  rw [outsAt0_C m c (⟨n + 1, h⟩ : Fin cfg0.N) h0 h1]
  dsimp only
  exact acc_close (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (outsAt0 m c n (Nat.lt_of_succ_lt h)).2

/-- and the output block is `0 − √` of the accumulator the step has just written. -/
theorem step_out (c : Dev nD) (n : ℕ) (h : n + 1 < cfg0.N) (h0 : ¬(n + 1) % 4 = 0) (h1 : (n + 1) % 4 = 3) :
    (outsAt0 m c (n + 1) h).1 = k0_pay3 (outsAt0 m c (n + 1) h).2 := by
  rw [outsAt0_C m c (⟨n + 1, h⟩ : Fin cfg0.N) h0 h1]
  dsimp only
  exact (out_close (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (outsAt0 m c n (Nat.lt_of_succ_lt h)).2).trans
    (congrArg k0_pay3 (acc_close (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) scM0_0 (Memref.isWhole_whole _) (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (outsAt0 m c n (Nat.lt_of_succ_lt h)).2).symm)

/-! ## The accumulator after step `n` -/

/-- After step `n` the accumulator's entry `(p, q)` is the sum over chunks `0 … n % 4` of the squared positive parts of
    label row `128·(n / 4 % 4) + q` minus visual row `128·(n / 16) + p`. -/
theorem acc_eq (c : Dev nD) : ∀ (n : ℕ) (h : n < cfg0.N) (k : ℕ) (hk : k < 4), n % 4 = k →
    ∀ (p q : Fin 128) (r : Fin 1024) (s : Fin 512), r.val = 128 * (n / 16) + p.val → s.val = 128 * (n / 4 % 4) + q.val →
    ((outsAt0 m c n h).2 : Vec Ideal S128x128 .f32) (ix2 p q) = upTo (term (labArr m c) (visArr m c) r s) k hk
  | 0, h, k, hk, hnk, p, q, r, s, hr, hs => by
    obtain rfl : k = 0 := by omega
    refine (congrFun (step_open m c ⟨0, h⟩ rfl (by show ¬(0 : ℕ) % 4 = 3; decide)) (ix2 p q)).trans ?_
    refine (accum_apply (visBlk m c ⟨0, h⟩) (labBlk m c ⟨0, h⟩) (k0_pay1 (F := Ideal)) p q).trans ?_
    rw [reset_apply, zero_add, upTo_zero]
    exact blockSum m c ⟨0, h⟩ 0 _ rfl p q r s hr hs
  | n + 1, h, k, hk, hnk, p, q, r, s, hr, hs => by
    by_cases h0 : (n + 1) % 4 = 0
    · obtain rfl : k = 0 := by omega
      have h1 : ¬(n + 1) % 4 = 3 := by omega
      refine (congrFun (step_open m c (⟨n + 1, h⟩ : Fin cfg0.N) h0 h1) (ix2 p q)).trans ?_
      refine (accum_apply (visBlk m c (⟨n + 1, h⟩ : Fin cfg0.N)) (labBlk m c (⟨n + 1, h⟩ : Fin cfg0.N)) (k0_pay1 (F := Ideal)) p q).trans ?_
      rw [reset_apply, zero_add, upTo_zero]
      exact blockSum m c (⟨n + 1, h⟩ : Fin cfg0.N) 0 _ h0 p q r s hr hs
    · obtain ⟨k', rfl⟩ : ∃ k', k = k' + 1 := ⟨k - 1, by omega⟩
      have ih := acc_eq c n (Nat.lt_of_succ_lt h) k' (by omega) (by omega) p q r s (by omega) (by omega)
      have hstep : (outsAt0 m c (n + 1) h).2
          = k0_pay2 (visBlk m c (⟨n + 1, h⟩ : Fin cfg0.N)) (labBlk m c (⟨n + 1, h⟩ : Fin cfg0.N)) (outsAt0 m c n (Nat.lt_of_succ_lt h)).2 := by
        by_cases h1 : (n + 1) % 4 = 3
        · exact step_close m c n h h0 h1
        · exact step_inner m c n h h0 h1
      refine (congrFun hstep (ix2 p q)).trans ?_
      refine (accum_apply (visBlk m c (⟨n + 1, h⟩ : Fin cfg0.N)) (labBlk m c (⟨n + 1, h⟩ : Fin cfg0.N)) (outsAt0 m c n (Nat.lt_of_succ_lt h)).2 p q).trans ?_
      rw [upTo_succ, ih]
      exact congrArg (_ + ·) (blockSum m c (⟨n + 1, h⟩ : Fin cfg0.N) (k' + 1) hk hnk p q r s hr hs)

/-- At a step with `k = 3` the output block's entry `(p, q)` is the score of visual row `128·(t / 16) + p` against label row
    `128·(t / 4 % 4) + q`: the four chunks are the whole sum. -/
theorem out_eq (c : Dev nD) (t : Fin cfg0.N) (ht : t.val % 4 = 3) (p q : Fin 128) (r : Fin 1024) (s : Fin 512)
    (hr : r.val = 128 * (t.val / 16) + p.val) (hs : s.val = 128 * (t.val / 4 % 4) + q.val) :
    ((outsAt0 m c t.val t.isLt).1 : Vec Ideal S128x128 .f32) (ix2 p q) = score (labArr m c) (visArr m c) (ix2 r s) := by
  obtain ⟨tv, tl⟩ := t
  cases tv with
  | zero => exact absurd ht (by show ¬(0 : ℕ) % 4 = 3; decide)
  | succ n =>
    have h0 : ¬(n + 1) % 4 = 0 := by dsimp only at ht; omega
    refine (congrFun (step_out m c n tl h0 ht) (ix2 p q)).trans ?_
    refine (negRoot_apply (outsAt0 m c (n + 1) tl).2 p q).trans ?_
    rw [acc_eq m c (n + 1) tl 3 (by norm_num) ht p q r s hr hs, upTo_three]
    rfl

end Cert.KernelIdeal.PointSum

end
-- ==== Proof.ScoreArray.lean ====
/-
  The result array after the kernel's run is the score array.

  The output window writes a block back exactly at the steps with `k = 3`, and what it writes is block
  `(t / 16, t / 4 % 4)` of the score array: entry `(p, q)` of the block is the score of rows
  `(128·(t / 16) + p, 128·(t / 4 % 4) + q)`. Every entry `(r, s)` of the `[1024, 512]` result lies in the block written at
  step `16·(r / 128) + 4·(s / 128) + 3`, so the written blocks cover the array and it ends holding the score.
-/
import proofs.«139450_j15899968930480_1_alg».proof.Proof.PointSum

set_option maxRecDepth 16384

noncomputable section

namespace Cert.KernelIdeal.ScoreArray

open Cert.KernelIdeal Cert.KernelIdeal.Gen Idealize.ShloMosaic Idealize.ShloMosaic.TcCoe Idealize.SL.Sem
open Idealize.ShloMosaic.Pipeline (Dat)
open Idealize.ShloMosaic.ValueIdx OrderScore Cert.KernelIdeal.PointSum

variable (m : (ℓ : Loc nD τ sig) → Buf (Elt Ideal) ℓ) (ρ : Dev nD → PrngReg)

/-- The score of the two tables as the kernel finds them, as contents of the result array. -/
abbrev scoreOf (c : Dev nD) : Vec Ideal S1024x512 .f32 := score (labArr m c) (visArr m c)

/-- What a step with `k = 3` writes back is its block of the score array. -/
theorem flushed_eq (c : Dev nD) (t : Fin cfg0.N) (hf : (cfg0.win 2).flush t = true) :
    (dats m 0 c).flushed 2 t = ((cfg0.win 2).blk t).view.read (Elt Ideal) (scoreOf m c) := by
  have ht : t.val % 4 = 3 := (flush0_2 t).mp hf
  have hN : t.val < 128 := lt_of_lt_of_eq t.isLt (show cfg0.N = 128 from N_0)
  obtain ⟨-, -, -, -, e4, e5⟩ := blockIdx t
  rw [Cert.KernelIdeal.Value.flushed2]
  funext y
  obtain ⟨p, q, rfl⟩ : ∃ (p q : Fin 128), y = ix2 p q := ⟨y 0, y 1, eq_ix2 y⟩
  show ((outsAt0 m c t.val t.isLt).1 : Vec Ideal S128x128 .f32) (ix2 p q)
    = scoreOf m c (((cfg0.win 2).blk t).view.emb (ix2 p q))
  rw [out_eq m c t ht p q ⟨128 * (t.val / 16) + p.val, by omega⟩ ⟨128 * (t.val / 4 % 4) + q.val, by omega⟩ rfl rfl]
  refine congrArg (scoreOf m c) (funext fun a => Fin.ext ?_)
  match a with
  | ⟨0, _⟩ => show 128 * (t.val / 16) + p.val = win0_2.index t (0 : Fin 2) * 128 + 1 * p.val; omega
  | ⟨1, _⟩ => show 128 * (t.val / 4 % 4) + q.val = win0_2.index t (1 : Fin 2) * 128 + 1 * q.val; omega

/-- An entry of the result is in step `t`'s block iff each coordinate is in the block's range on its axis. -/
theorem mem_blk (t : Fin cfg0.N) (i : S1024x512.Idx) :
    i ∈ ((cfg0.win 2).blk t).view.set ↔ ∀ a : Fin 2, win0_2.index t a * S128x128.size a ≤ (i a).val
      ∧ (i a).val < win0_2.index t a * S128x128.size a + S128x128.size a := by
  show i ∈ ((View.whole main_v0).slice (win0_2.rect t)).set ↔ _
  rw [View.set_slice_whole, Rect.mem_set_unit]
  exact Iff.rfl

/-- Every entry `(r, s)` is written at step `16·(r / 128) + 4·(s / 128) + 3`. -/
theorem covered (i : S1024x512.Idx) :
    ∃ t : Fin cfg0.N, (cfg0.win 2).flush t = true ∧ i ∈ ((cfg0.win 2).blk t).view.set := by
  have hi0 : (i 0).val < 1024 := (i 0).isLt
  have hi1 : (i 1).val < 512 := (i 1).isLt
  have hN : cfg0.N = 128 := N_0
  obtain ⟨tv, htv⟩ : ∃ tv : ℕ, tv = 16 * ((i 0).val / 128) + 4 * ((i 1).val / 128) + 3 := ⟨_, rfl⟩
  have hlt : tv < cfg0.N := by omega
  obtain ⟨-, -, -, -, e4, e5⟩ := blockIdx ⟨tv, hlt⟩
  refine ⟨⟨tv, hlt⟩, (flush0_2 ⟨tv, hlt⟩).mpr (by show tv % 4 = 3; omega), ?_⟩
  rw [mem_blk]
  intro a
  match a with
  | ⟨0, _⟩ =>
    show win0_2.index ⟨tv, hlt⟩ (0 : Fin 2) * 128 ≤ (i 0).val ∧ (i 0).val < win0_2.index ⟨tv, hlt⟩ (0 : Fin 2) * 128 + 128
    rw [e4]
    show tv / 16 * 128 ≤ (i 0).val ∧ (i 0).val < tv / 16 * 128 + 128
    omega
  | ⟨1, _⟩ =>
    show win0_2.index ⟨tv, hlt⟩ (1 : Fin 2) * 128 ≤ (i 1).val ∧ (i 1).val < win0_2.index ⟨tv, hlt⟩ (1 : Fin 2) * 128 + 128
    rw [e5]
    show tv / 4 % 4 * 128 ≤ (i 1).val ∧ (i 1).val < tv / 4 % 4 * 128 + 128
    omega

/-- So the result array ends holding the score array. -/
theorem final (c : Dev nD) : (dats m 0 c).arrAt 2 cfg0.N = scoreOf m c :=
  (dats m 0 c).arrAt_eq_of_cover 2 (scoreOf m c) (fun t hf => flushed_eq m c t hf) covered

/-- The kernel's run: it ends with the result array at the score of its two arguments, which are unchanged. -/
theorem run : θ_run defs (onTc (τ := τ) (main (F := Ideal))) ⟨m, fun _ => 0, ρ⟩ fun r => ∀ c : Dev nD,
      r.2.mem ((c : Thread nD τ).loc main_v0)
        = score (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ScoreArray

end
-- ==== Proof.lean ====
/-
  The order-violation score `score[n, r] = -‖max(lab[r] − vis[n], 0)‖₂` over `lab : [512, 512]`, `vis : [1024, 512]`: the
  tiled kernel and the broadcast reference compute the same `[1024, 512]` array on the extended reals.

  Both are `-√(∑ d, (max (lab r d − vis n d) 0)²)` at entry `(n, r)` (Proof/OrderScore.lean). The reference takes the sum
  over the 512 features at once, from a zero (Proof/RefScore.lean). The kernel walks an `8 × 4 × 4` grid of
  `128 × 128 × 128` tiles with the feature chunk fastest, keeps a running block of partial sums that it resets at chunk 0,
  adds one chunk's sum to at every step, and turns into the output block `0 − √acc` at chunk 3 (Proof/StepValue.lean: what a
  step stores; Proof/StepAt.lean: the stored values at an entry; Proof/PointSum.lean: the running block after each step,
  by induction on the step; Proof/ScoreArray.lean: the written blocks cover the result). The two sides meet because `+` on
  the extended reals is associative and commutative with unit `0` — a sum over 512 indices is the sum of its four runs of
  128 — and `0 − x = −x`. No step needs an entry to be finite, so the precondition is never opened.

  The three frame claims are the generated frame runs (the reference's frame is its run with the result dropped); the
  idealization rewrote nothing, so the preservation claim is `True`.
-/
import proofs.«139450_j15899968930480_1_alg».proof.Defs
import proofs.«139450_j15899968930480_1_alg».proof.Proof.Gen.Kernel
import proofs.«139450_j15899968930480_1_alg».proof.Proof.Gen.Kernel.Skeleton
import proofs.«139450_j15899968930480_1_alg».proof.Proof.Gen.Kernel.Launch
import proofs.«139450_j15899968930480_1_alg».proof.Proof.Gen.Kernel.Points
import proofs.«139450_j15899968930480_1_alg».proof.Proof.Gen.Kernel.Frame
import proofs.«139450_j15899968930480_1_alg».proof.Proof.Gen.KernelIdeal
import proofs.«139450_j15899968930480_1_alg».proof.Proof.Gen.KernelIdeal.Skeleton
import proofs.«139450_j15899968930480_1_alg».proof.Proof.Gen.KernelIdeal.Launch
import proofs.«139450_j15899968930480_1_alg».proof.Proof.Gen.KernelIdeal.Points
import proofs.«139450_j15899968930480_1_alg».proof.Proof.Gen.KernelIdeal.Frame
import proofs.«139450_j15899968930480_1_alg».proof.Proof.Gen.ReferenceIdeal
import proofs.«139450_j15899968930480_1_alg».proof.Proof.Gen.Pre_finite_inputs
import proofs.«139450_j15899968930480_1_alg».proof.Proof.Gen.KernelIdeal.Value
import proofs.«139450_j15899968930480_1_alg».proof.Proof.Gen.ReferenceIdeal.Run
import proofs.«139450_j15899968930480_1_alg».proof.Proof.Gen.ReferenceIdeal.Read
import proofs.«139450_j15899968930480_1_alg».proof.Proof.OrderScore
import proofs.«139450_j15899968930480_1_alg».proof.Proof.RefScore
import proofs.«139450_j15899968930480_1_alg».proof.Proof.ScoreArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array ends at the score of its arguments (the running block of partial sums,
    closed at the fourth chunk) and the reference's at the score of arguments that agree with them (one sum from a zero):
    the same array. -/
theorem algebraic : Cert.algebraic_KernelIdeal_ReferenceIdeal := by
  intro m ρ m' ρ' _ hagree
  refine ⟨_, Cert.KernelIdeal.ScoreArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v9_eq _ _).trans (Cert.ReferenceIdeal.RefScore.result_is_score _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
